-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S128x128 : Shape := ⟨2, ![128, 128]⟩
abbrev S400 : Shape := ⟨1, ![400]⟩
abbrev S400x1 : Shape := ⟨2, ![400, 1]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x256, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v3 : BitVec 32 := Scalar.muli arg0 c400_i32
  let v4 : Index := Scalar.indexCast v3
  let c0_3 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  h_S400x128 : 0 < S400x128.numel
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S10000x256 : Shape := ⟨2, ![10000, 256]⟩
abbrev S256x128 : Shape := ⟨2, ![256, 128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S10000x128, .f32⟩
  | .hbm, ⟨5, _⟩ => ⟨S10000x256, .f32⟩
  | .hbm, ⟨6, _⟩ => ⟨S256x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S10000x1, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KernelPiece.lean ====
/-
  What a grid step leaves in the output's staging buffer.

  The body's one store covers the whole 400 × 128 staging buffer, so what the buffer holds afterwards is that store's
  value: the body's arithmetic applied to what its loads read. Four loads read whole buffers (the adjacency block, the
  feature matrix twice over, the bias row); three read a part: the 400 feature rows starting at row 400·i of the feature
  matrix (the rows of grid step i's own nodes), and the left and right 128 columns of the weight.
-/
import proofs.«174508_g49082886258797_cont_8to1_c_363_13_alg».proof.Proof.Gen.KernelIdeal.Frame
import Idealize.ShloMosaic.Lib.Pipeline.Value

set_option maxRecDepth 16384

noncomputable section

namespace Cert.KernelIdeal.SagePiece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zero_offsets : (![0, 0] : Fin 2 → Nat) = fun _ => 0 := funext fun a => by fin_cases a <;> rfl

/-- The 400 feature rows of grid step `i`'s own nodes, read out of the whole feature matrix. -/
abbrev selfRows (i : grid0.Coords) (x1 : Vec F S10000x128 .f32) : Vec F S400x128 .f32 :=
  View.ld x1 (Rect.unit (s := S10000x128) (k0_off1 i) S400x128.size (k0_off1_inb i))
/-- The weight's left 128 columns. -/
abbrev weightLeft (x2 : Vec F S128x256 .f32) : Vec F S128x128 .f32 :=
  View.ld x2 (Rect.unit (s := S128x256) ![0, 0] S128x128.size inb_S128x256_S128x128_0_0)
/-- The weight's right 128 columns. -/
abbrev weightRight (x2 : Vec F S128x256 .f32) : Vec F S128x128 .f32 :=
  View.ld x2 (Rect.unit (s := S128x256) ![0, 128] S128x128.size inb_S128x256_S128x128_0_128)

/-- After the body, the output's staging buffer holds the body's arithmetic of the staged blocks. -/
theorem staged_out (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S400x128 .f32) (harg5 : arg5.IsWhole)
    (x0 : Vec F S400x10000 .f32) (x1 : Vec F S10000x128 .f32) (x2 : Vec F S128x256 .f32) (x3 : Vec F S1x128 .f32) :
    out0_A_4 c i arg1 harg1 arg2 harg2 arg3 harg3 arg4 harg4 arg5 harg5 x0 x1 x2 x3
      = k0_pay1 x0 x1 (selfRows i x1) (weightLeft x2) (weightRight x2) x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  rw [View.canon_unit_zero zero_offsets]
  simp only [View.readAt_eq_ld, harg1.read_unread, harg2.read_unread, harg3.read_unread, harg4.read_unread,
    View.ld_unit_zero (S := S400x10000) zero_offsets, View.ld_unit_zero (S := S10000x128) zero_offsets,
    View.ld_unit_zero (S := S1x128) zero_offsets]

end Cert.KernelIdeal.SagePiece

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.LibDotNT.lean ====
/-
  A matrix product against a TRANSPOSED right operand, read at an index, at the ideal values.

  A [M, K] × [N, K] product contracting the second axis of both operands, into a zero accumulator: entry (p, q) is
  Σ over k < K of A(p, k) · B(q, k) — the row p of A against the row q of B. This is x · Wᵀ with W stored [N, K].
-/
import proofs.«174508_g49082886258797_cont_8to1_c_363_13_alg».proof.Proof.LibOuterDot

noncomputable section

open scoped BigOperators

namespace Cert.LibDotNT

open Idealize.ShloMosaic Idealize.ShloMosaic.ValueIdx

/-- The product into the zero accumulator read at (p, q), given where the dimension numbers send the indices: the left
    operand is read at (p, k), the right at (q, k). -/
theorem matmul_zero_ix2_nt_of {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (i 1).val) (r1 : ∀ i q, (d.rhsIdx i q 1).val = (q ⟨0, by omega⟩).val)
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 q k := funext fun a => Fin.ext (by
    match a with
    | ⟨0, _⟩ => exact r0 _ _
    | ⟨1, _⟩ => exact (r1 _ _).trans hk)
  rw [el, er]

/-- Both operands contracted on their second axis, their first axes free, no batch axes: x · Wᵀ at (p, q) is the sum
    over k < K of A(p, k) · B(q, k). -/
theorem matmul_zero_ix2_nt {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) :=
  matmul_zero_ix2_nt_of d hr hs
    (fun i q => Cert.LibOuterDot.lhs_free_val d 0 0 hlb hln rfl i q)
    (fun i q => d.lhsIdx_val_of_single hlc i q)
    (fun i q => Cert.LibOuterDot.rhs_free_val d 0 1 0 hlb hrb hln hrn rfl i q)
    (fun i q => d.rhsIdx_val_of_single hrc i q)
    prec A B p q

end Cert.LibDotNT

end
-- ==== Proof.Spec.lean ====
/-
  The layer's value, entry by entry, on the extended reals.

  With F the node features [10000, 128], A the adjacency [10000, 10000], W the weight [128, 256] and b the bias [128]:
  the aggregate of node r is (A · F)(r, k) = Σ_l A(r, l) · F(l, k); the linear layer applied to the row [F(r, ·), (A·F)(r, ·)]
  of length 256 is, at output column q,
      lin(r, q) = Σ_{k<128} F(r, k) · W(q, k) + Σ_{k<128} (A·F)(r, k) · W(q, 128 + k) + b(q),
  the contraction over 256 columns split at column 128; and the result is the row divided by its Euclidean length,
  the length kept above the constant 1e-12 (as a binary32 word):
      out(r, q) = lin(r, q) / max(√(Σ_q' lin(r, q')²), ε).
  Splitting a sum over 256 into two sums over 128 uses only that addition of extended reals is a commutative monoid,
  so nothing here asks the entries to be finite.
-/
import Idealize.ShloMosaic.Lib.ValueIdx
import Idealize.ShloMosaic.PureOps.Ideal.Laws

noncomputable section

open scoped BigOperators

namespace Cert.SageSpec

open Idealize.ShloMosaic Idealize.ShloMosaic.ValueIdx

/-- Column k of the weight's first half (it multiplies a node's own features). -/
abbrev lo (k : Fin 128) : Fin 256 := ⟨k.val, by omega⟩
/-- Column 128 + k of the weight's second half (it multiplies the aggregate). -/
abbrev hi (k : Fin 128) : Fin 256 := ⟨128 + k.val, by omega⟩

/-- A sum over 256 columns is the sum over the first 128 plus the sum over the last 128. -/
theorem sum_256_split {M : Type*} [AddCommMonoid M] (f : Fin 256 → M) :
    ∑ k : Fin 256, f k = ∑ k : Fin 128, f (lo k) + ∑ k : Fin 128, f (hi k) :=
  Fin.sum_univ_add (a := 128) (b := 128) f

variable (feat : (⟨2, ![10000, 128]⟩ : Shape).Idx → EReal) (adj : (⟨2, ![10000, 10000]⟩ : Shape).Idx → EReal)
  (W : (⟨2, ![128, 256]⟩ : Shape).Idx → EReal) (b : (⟨1, ![128]⟩ : Shape).Idx → EReal)

/-- The neighbour aggregate (A · F)(r, k). -/
def agg (r : Fin 10000) (k : Fin 128) : EReal := ∑ l : Fin 10000, adj (ix2 r l) * feat (ix2 l k)

/-- The linear layer on the row [F(r, ·), (A·F)(r, ·)], at column q, before normalisation. -/
def lin (r : Fin 10000) (q : Fin 128) : EReal :=
  (∑ k : Fin 128, feat (ix2 r k) * W (ix2 q (lo k))) + (∑ k : Fin 128, agg feat adj r k * W (ix2 q (hi k))) + b (ix1 q)

/-- The floor under a row's length: the binary32 word of 1e-12. -/
def eps : EReal := Ideal.ofBits .f32 0x2B8CBCCC#32

/-- A row's Euclidean length, kept above the floor. -/
def len (r : Fin 10000) : EReal := max (Ideal.sqrt (∑ k : Fin 128, lin feat adj W b r k * lin feat adj W b r k)) eps

/-- The layer's result at (r, q): the linear layer's entry over the row's length. -/
def out (i : (⟨2, ![10000, 128]⟩ : Shape).Idx) : EReal :=
  Ideal.div (lin feat adj W b (i 0) (i 1)) (len feat adj W b (i 0))

theorem out_ix2 (r : Fin 10000) (q : Fin 128) :
    out feat adj W b (ix2 r q) = Ideal.div (lin feat adj W b r q) (len feat adj W b r) := rfl

end Cert.SageSpec

end
-- ==== Proof.KernelPayload.lean ====
/-
  What one grid step's body computes, entry by entry.

  A grid step holds 400 rows of the adjacency (the block), the whole feature matrix, the 400 feature rows of the same
  nodes, the two halves of the weight and the bias as a row. Its body forms the aggregate of the block's rows,
  nb(p, k) = Σ_l block(p, l) · F(l, k); the linear layer in two halves, Σ_k self(p, k) · W₁(q, k) + Σ_k nb(p, k) · W₂(q, k),
  plus the bias; the sum of each row's squares, its square root kept above the floor; and the quotient. If the block's
  rows are the rows row(p) of the whole arrays, entry (p, q) of what the body stores is the layer's value at (row(p), q).
-/
import proofs.«174508_g49082886258797_cont_8to1_c_363_13_alg».proof.Proof.Gen.KernelIdeal.Skeleton
import proofs.«174508_g49082886258797_cont_8to1_c_363_13_alg».proof.Proof.LibDotNT
import proofs.«174508_g49082886258797_cont_8to1_c_363_13_alg».proof.Proof.Spec
import Idealize.ShloMosaic.Lib.Pipeline.Value

noncomputable section

open scoped BigOperators

namespace Cert.SageKernel

open Cert.KernelIdeal Cert.KernelIdeal.Gen Idealize.ShloMosaic Idealize.ShloMosaic.ValueIdx Cert.SageSpec

variable (v0 : FVec Ideal S400x10000 .f32) (v1 : FVec Ideal S10000x128 .f32) (v5 : FVec Ideal S400x128 .f32)
  (v6 v8 : FVec Ideal S128x128 .f32) (v11 : FVec Ideal S1x128 .f32)

/-- The block's rows before normalisation: both halves of the linear layer, plus the bias row laid under every row. -/
def preNorm : FVec Ideal S400x128 .f32 :=
  addf (addf (matmul dot_S400x128_S128x128_S400x128_1_1_0_0_n_n none v5 v6 (constant S400x128 .f32 0x00000000#32))
      (matmul dot_S400x128_S128x128_S400x128_1_1_0_0_n_n none
        (matmul dot_S400x10000_S10000x128_S400x128_1_0_0_1_n_n none v0 v1 (constant S400x128 .f32 0x00000000#32)) v8
        (constant S400x128 .f32 0x00000000#32)))
    (broadcastTo S400x128 (shapeCast S1x128 v11 shapeCasts_S1x128_S1x128) broadcasts_S1x128_S400x128)

/-- What the body stores is the block's rows over their lengths. -/
theorem payload_eq :
    k0_pay1 (F := Ideal) v0 v1 v5 v6 v8 v11
      = divf (preNorm v0 v1 v5 v6 v8 v11)
          (broadcastTo S400x128
            (maximumf
              (sqrt (shapeCast S400x1
                (multiReduction .add [1] S400 (mulf (preNorm v0 v1 v5 v6 v8 v11) (preNorm v0 v1 v5 v6 v8 v11)) 0x00000000#32
                  reduces_S400x128_S400 (.inl rfl) rfl) shapeCasts_S400_S400x1))
              (broadcast S400x1 (Scalar.ofBits .f32 0x2B8CBCCC#32)))
            broadcasts_S400x1_S400x128) := rfl

variable (feat : (⟨2, ![10000, 128]⟩ : Shape).Idx → EReal) (adj : (⟨2, ![10000, 10000]⟩ : Shape).Idx → EReal)
  (W : (⟨2, ![128, 256]⟩ : Shape).Idx → EReal) (b : (⟨1, ![128]⟩ : Shape).Idx → EReal)
  (row : Fin 400 → Fin 10000)

/-- Entry (p, q) of the block before normalisation is the linear layer at (row p, q). -/
theorem preNorm_at
    (h0 : ∀ (p : Fin 400) (l : Fin 10000), v0 (ix2 p l) = adj (ix2 (row p) l))
    (h1 : ∀ (l : Fin 10000) (k : Fin 128), v1 (ix2 l k) = feat (ix2 l k))
    (h5 : ∀ (p : Fin 400) (k : Fin 128), v5 (ix2 p k) = feat (ix2 (row p) k))
    (h6 : ∀ q k : Fin 128, v6 (ix2 q k) = W (ix2 q (lo k)))
    (h8 : ∀ q k : Fin 128, v8 (ix2 q k) = W (ix2 q (hi k)))
    (h11 : ∀ q : Fin 128, v11 (ix2 (0 : Fin 1) q) = b (ix1 q))
    (p : Fin 400) (q : Fin 128) :
    preNorm v0 v1 v5 v6 v8 v11 (ix2 p q) = lin feat adj W b (row p) q := by
  unfold preNorm lin
  refine (addf_apply _ _ _).trans ?_
  refine congrArg₂ (· + ·) ((addf_apply _ _ _).trans (congrArg₂ (· + ·) ?_ ?_)) ?_
  · -- the node's own features against the weight's first half
    refine (Cert.LibDotNT.matmul_zero_ix2_nt (M := 400) (K := 128) (N := 128)
      dot_S400x128_S128x128_S400x128_1_1_0_0_n_n rfl rfl rfl rfl rfl rfl rfl rfl none v5 v6 p q).trans ?_
    exact Finset.sum_congr rfl fun k _ => by rw [h5, h6]
  · -- the aggregate against the weight's second half
    refine (Cert.LibDotNT.matmul_zero_ix2_nt (M := 400) (K := 128) (N := 128)
      dot_S400x128_S128x128_S400x128_1_1_0_0_n_n rfl rfl rfl rfl rfl rfl rfl rfl none _ v8 p q).trans ?_
    refine Finset.sum_congr rfl fun k _ => ?_
    rw [h8]
    refine congrArg (· * _) ?_
    refine (Cert.LibOuterDot.matmul_zero_ix2 (M := 400) (K := 10000) (N := 128)
      dot_S400x10000_S10000x128_S400x128_1_0_0_1_n_n rfl rfl rfl rfl rfl rfl rfl rfl none v0 v1 p k).trans ?_
    unfold agg
    exact Finset.sum_congr rfl fun l _ => by rw [h0, h1]
  · -- the bias row under row p
    refine (broadcastTo_apply _ broadcasts_S1x128_S400x128 (ix2 p q) (ix2 (0 : Fin 1) q) ?_).trans ?_
    · intro a
      match a with
      | ⟨0, _⟩ => show (0 : ℕ) = if (1 : ℕ) = 1 then 0 else p.val; rw [if_pos rfl]
      | ⟨1, _⟩ => show q.val = if (128 : ℕ) = 1 then 0 else q.val; rw [if_neg (by decide)]
    · rw [shapeCast_self]
      exact h11 q

/-- Entry (p, q) of what the body stores is the layer's value at (row p, q). -/
theorem payload_at
    (h0 : ∀ (p : Fin 400) (l : Fin 10000), v0 (ix2 p l) = adj (ix2 (row p) l))
    (h1 : ∀ (l : Fin 10000) (k : Fin 128), v1 (ix2 l k) = feat (ix2 l k))
    (h5 : ∀ (p : Fin 400) (k : Fin 128), v5 (ix2 p k) = feat (ix2 (row p) k))
    (h6 : ∀ q k : Fin 128, v6 (ix2 q k) = W (ix2 q (lo k)))
    (h8 : ∀ q k : Fin 128, v8 (ix2 q k) = W (ix2 q (hi k)))
    (h11 : ∀ q : Fin 128, v11 (ix2 (0 : Fin 1) q) = b (ix1 q))
    (p : Fin 400) (q : Fin 128) :
    k0_pay1 (F := Ideal) v0 v1 v5 v6 v8 v11 (ix2 p q) = out feat adj W b (ix2 (row p) q) := by
  rw [payload_eq, out_ix2]
  refine (divf_apply _ _ _).trans (congrArg₂ Ideal.div (preNorm_at v0 v1 v5 v6 v8 v11 feat adj W b row h0 h1 h5 h6 h8 h11 p q) ?_)
  -- the divisor: the row's length, laid along the row
  refine (broadcastTo_apply _ broadcasts_S400x1_S400x128 (ix2 p q) (ix2 p (0 : Fin 1)) ?_).trans ?_
  · intro a
    match a with
    | ⟨0, _⟩ => show p.val = if (400 : ℕ) = 1 then 0 else p.val; rw [if_neg (by decide)]
    | ⟨1, _⟩ => show (0 : ℕ) = if (1 : ℕ) = 1 then 0 else q.val; rw [if_pos rfl]
  · unfold len
    refine (maximumf_apply _ _ _).trans (congrArg₂ max ?_ rfl)
    show Ideal.sqrt (shapeCast S400x1 _ shapeCasts_S400_S400x1 (ix2 p (0 : Fin 1))) = _
    refine congrArg Ideal.sqrt ?_
    refine (shapeCast_apply _ shapeCasts_S400_S400x1 (ix2 p (0 : Fin 1)) (ix1 p) ?_).trans ?_
    · rw [Shape.rowMajor_val_one, Shape.rowMajor_val_two]
      show p.val = p.val * 1 + 0
      omega
    · refine (Ideal.multiReduction_add_single _ 0x00000000#32 reduces_S400x128_S400 (.inl rfl) rfl (ix1 p)).trans ?_
      refine Finset.sum_congr rfl fun (k : Fin 128) _ => ?_
      have e : reduces_S400x128_S400.lift (ix1 p) k = ix2 p k :=
        funext fun a => Fin.ext (by match a with | ⟨0, _⟩ => rfl | ⟨1, _⟩ => rfl)
      rw [e]
      refine (mulf_apply _ _ _).trans ?_
      exact congrArg₂ (· * ·) (preNorm_at v0 v1 v5 v6 v8 v11 feat adj W b row h0 h1 h5 h6 h8 h11 p k)
        (preNorm_at v0 v1 v5 v6 v8 v11 feat adj W b row h0 h1 h5 h6 h8 h11 p k)

end Cert.SageKernel

end
-- ==== Proof.KernelBlocks.lean ====
/-
  From grid steps to the whole result.

  Grid step t stages rows 400·t … 400·t + 399 of the adjacency, the whole feature matrix, the whole weight and the bias
  laid out as one row, and writes back rows 400·t … 400·t + 399 of the result. The 25 steps' row ranges tile the 10000
  rows, so every entry of the result is written by exactly the step t = r / 400 that holds its row, and there it is the
  layer's value at (r, q): the step's body, read entry by entry, computes the layer on the rows it holds.
  The bias row is the bias vector given a leading unit axis before the call, entry (0, q) being b(q).
-/
import proofs.«174508_g49082886258797_cont_8to1_c_363_13_alg».proof.Proof.Gen.KernelIdeal.Value
import proofs.«174508_g49082886258797_cont_8to1_c_363_13_alg».proof.Proof.KernelPiece
import proofs.«174508_g49082886258797_cont_8to1_c_363_13_alg».proof.Proof.KernelPayload
import Idealize.ShloMosaic.Lib.StableHlo.Run

set_option maxRecDepth 16384

noncomputable section

open scoped BigOperators

namespace Cert.KernelIdeal.SageBlocks

open Cert.KernelIdeal Cert.KernelIdeal.Gen Idealize.ShloMosaic Idealize.ShloMosaic.TcCoe Idealize.SL.Sem
open Idealize.ShloMosaic.Pipeline (Dat)
open Idealize.ShloMosaic.ValueIdx Cert.SageSpec Cert.KernelIdeal.SagePiece

variable (m : (ℓ : Loc nD τ sig) → Buf (Elt Ideal) ℓ) (ρ : Dev nD → PrngReg)

/-! ## The arrays as the call finds them, and the blocks a step stages -/

abbrev featArr (c : Dev nD) : FVec Ideal S10000x128 .f32 := V m c main_arg0
abbrev adjArr (c : Dev nD) : FVec Ideal S10000x10000 .f32 := V m c main_arg1
abbrev wArr (c : Dev nD) : FVec Ideal S128x256 .f32 := V m c main_arg2
abbrev biasArr (c : Dev nD) : FVec Ideal S128 .f32 := V m c main_arg3
abbrev biasRowArr (c : Dev nD) : FVec Ideal S1x128 .f32 := V m c main_v0

abbrev adjBlk (c : Dev nD) (t : Fin cfg0.N) : FVec Ideal S400x10000 .f32 := iblk m c 0 t
abbrev featBlk (c : Dev nD) (t : Fin cfg0.N) : FVec Ideal S10000x128 .f32 := iblk m c 1 t
abbrev wBlk (c : Dev nD) (t : Fin cfg0.N) : FVec Ideal S128x256 .f32 := iblk m c 2 t
abbrev biasBlk (c : Dev nD) (t : Fin cfg0.N) : FVec Ideal S1x128 .f32 := iblk m c 3 t

/-- The block indices of the five windows at step t: the adjacency's and the result's row block is t, every other
    block index is 0; and the step's grid coordinate is t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

theorem step_lt (t : Fin cfg0.N) : t.val < 25 := lt_of_lt_of_eq t.isLt N_0

/-- Row p of step t's blocks is row 400·t + p of the whole arrays. -/
def rowOf (t : Fin cfg0.N) (p : Fin 400) : Fin 10000 :=
  ⟨400 * t.val + p.val, by have := step_lt t; have := p.isLt; omega⟩

/-- The adjacency block of step t holds rows 400·t … of the adjacency. -/
theorem adjBlk_at (c : Dev nD) (t : Fin cfg0.N) (p : Fin 400) (l : Fin 10000) :
    adjBlk m c t (ix2 p l) = adjArr m c (ix2 (rowOf t p) l) := by
  obtain ⟨e0, e1, -⟩ := idx_facts t
  show V m c main_arg1 (((cfg0.win 0).blk t).view.emb (ix2 p l)) = V m c main_arg1 (ix2 (rowOf t p) l)
  refine congrArg (V m c main_arg1) (funext fun a => Fin.ext ?_)
  match a with
  | ⟨0, _⟩ => show win0_0.index t (0 : Fin 2) * 400 + 1 * p.val = 400 * t.val + p.val; omega
  | ⟨1, _⟩ => show win0_0.index t (1 : Fin 2) * 10000 + 1 * l.val = l.val; omega

/-- The staged feature matrix is the whole feature matrix. -/
theorem featBlk_at (c : Dev nD) (t : Fin cfg0.N) (l : Fin 10000) (k : Fin 128) :
    featBlk m c t (ix2 l k) = featArr m c (ix2 l k) := by
  obtain ⟨-, -, e0, e1, -⟩ := idx_facts t
  show V m c main_arg0 (((cfg0.win 1).blk t).view.emb (ix2 l k)) = V m c main_arg0 (ix2 l k)
  refine congrArg (V m c main_arg0) (funext fun a => Fin.ext ?_)
  match a with
  | ⟨0, _⟩ => show win0_1.index t (0 : Fin 2) * 10000 + 1 * l.val = l.val; omega
  | ⟨1, _⟩ => show win0_1.index t (1 : Fin 2) * 128 + 1 * k.val = k.val; omega

/-- The staged weight is the whole weight. -/
theorem wBlk_at (c : Dev nD) (t : Fin cfg0.N) (q : Fin 128) (k : Fin 256) :
    wBlk m c t (ix2 q k) = wArr m c (ix2 q k) := by
  obtain ⟨-, -, -, -, e0, e1, -⟩ := idx_facts t
  show V m c main_arg2 (((cfg0.win 2).blk t).view.emb (ix2 q k)) = V m c main_arg2 (ix2 q k)
  refine congrArg (V m c main_arg2) (funext fun a => Fin.ext ?_)
  match a with
  | ⟨0, _⟩ => show win0_2.index t (0 : Fin 2) * 128 + 1 * q.val = q.val; omega
  | ⟨1, _⟩ => show win0_2.index t (1 : Fin 2) * 256 + 1 * k.val = k.val; omega

/-- The staged bias row is the whole bias row. -/
theorem biasBlk_at (c : Dev nD) (t : Fin cfg0.N) (q : Fin 128) :
    biasBlk m c t (ix2 (0 : Fin 1) q) = biasRowArr m c (ix2 (0 : Fin 1) q) := by
  obtain ⟨-, -, -, -, -, -, e0, e1, -⟩ := idx_facts t
  show V m c main_v0 (((cfg0.win 3).blk t).view.emb (ix2 (0 : Fin 1) q)) = V m c main_v0 (ix2 (0 : Fin 1) q)
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The bias row the call stages is the bias vector with a leading unit axis: entry (0, q) is b(q). -/
theorem biasRow_at (c : Dev nD) (q : Fin 128) : biasRowArr m c (ix2 (0 : Fin 1) q) = biasArr m c (ix1 q) := by
  have e : (V m c main_v0 : S1x128.Idx → EReal) = shapeCast S1x128 (V m c main_arg3 : S128.Idx → EReal) shapeCasts_S128_S1x128 := by
    dsimp only [Gen.V, Gen.hostOps0]
    after_results
    rfl
  show (V m c main_v0 : S1x128.Idx → EReal) (ix2 (0 : Fin 1) q) = _
  rw [e]
  refine shapeCast_apply _ shapeCasts_S128_S1x128 (ix2 (0 : Fin 1) q) (ix1 q) ?_
  rw [Shape.rowMajor_val_one, Shape.rowMajor_val_two]
  show q.val = 0 * 128 + q.val
  omega

/-- The 400 feature rows a step reads for its own nodes are rows 400·t … of the feature matrix. -/
theorem selfRows_at (c : Dev nD) (t : Fin cfg0.N) (p : Fin 400) (k : Fin 128) :
    selfRows (F := Ideal) (grid0.coords t) (featBlk m c t) (ix2 p k) = featArr m c (ix2 (rowOf t p) k) := by
  obtain ⟨-, -, -, -, -, -, -, -, -, -, eg⟩ := idx_facts t
  have hl : 400 * t.val + p.val < 10000 := (rowOf t p).isLt
  show featBlk m c t ((Rect.unit (s := S10000x128) (k0_off1 (grid0.coords t)) S400x128.size (k0_off1_inb (grid0.coords t))).idx (ix2 p k)) = _
  have ei : (Rect.unit (s := S10000x128) (k0_off1 (grid0.coords t)) S400x128.size (k0_off1_inb (grid0.coords t))).idx (ix2 p k)
      = ix2 (rowOf t p) k := funext fun a => Fin.ext (by
    match a with
    | ⟨0, _⟩ => show k0_off1 (grid0.coords t) 0 + 1 * p.val = 400 * t.val + p.val; rw [k0_off1_eq]; show 400 * (grid0.coords t 0).val + 1 * p.val = _; omega
    | ⟨1, _⟩ => show k0_off1 (grid0.coords t) 1 + 1 * k.val = k.val; rw [k0_off1_eq]; show 0 + 1 * k.val = _; omega)
  rw [ei]
  exact featBlk_at m c t (rowOf t p) k

/-- The weight's left half at (q, k) is W(q, k). -/
theorem weightLeft_at (c : Dev nD) (t : Fin cfg0.N) (q k : Fin 128) :
    weightLeft (F := Ideal) (wBlk m c t) (ix2 q k) = wArr m c (ix2 q (lo k)) := by
  show wBlk m c t ((Rect.unit (s := S128x256) ![0, 0] S128x128.size inb_S128x256_S128x128_0_0).idx (ix2 q k)) = _
  have ei : (Rect.unit (s := S128x256) ![0, 0] S128x128.size inb_S128x256_S128x128_0_0).idx (ix2 q k) = ix2 q (lo k) :=
    funext fun a => Fin.ext (by
      match a with
      | ⟨0, _⟩ => show 0 + 1 * q.val = q.val; omega
      | ⟨1, _⟩ => show 0 + 1 * k.val = k.val; omega)
  rw [ei]
  exact wBlk_at m c t q (lo k)

/-- The weight's right half at (q, k) is W(q, 128 + k). -/
theorem weightRight_at (c : Dev nD) (t : Fin cfg0.N) (q k : Fin 128) :
    weightRight (F := Ideal) (wBlk m c t) (ix2 q k) = wArr m c (ix2 q (hi k)) := by
  show wBlk m c t ((Rect.unit (s := S128x256) ![0, 128] S128x128.size inb_S128x256_S128x128_0_128).idx (ix2 q k)) = _
  have ei : (Rect.unit (s := S128x256) ![0, 128] S128x128.size inb_S128x256_S128x128_0_128).idx (ix2 q k) = ix2 q (hi k) :=
    funext fun a => Fin.ext (by
      match a with
      | ⟨0, _⟩ => show 0 + 1 * q.val = q.val; omega
      | ⟨1, _⟩ => show 128 + 1 * k.val = 128 + k.val; omega)
  rw [ei]
  exact wBlk_at m c t q (hi k)

/-! ## What a step writes back, and the whole result -/

/-- The layer's value on the arrays as the call finds them. -/
abbrev result (c : Dev nD) : FVec Ideal S10000x128 .f32 :=
  out (featArr m c) (adjArr m c) (wArr m c) (biasArr m c)

/-- After step t's body the output's staging buffer holds, at (p, q), the layer's value at (400·t + p, q). -/
theorem step_out (c : Dev nD) (t : Fin cfg0.N) :
    out0_A_4 (F := Ideal) c (grid0.coords t) (ms0_0 t) (hs0_0 t) (ms0_1 t) (hs0_1 t) (ms0_2 t) (hs0_2 t) (ms0_3 t) (hs0_3 t) (ms0_4 t) (hs0_4 t)
        (adjBlk m c t) (featBlk m c t) (wBlk m c t) (biasBlk m c t)
      = fun j : S400x128.Idx => result m c (ix2 (rowOf t (j 0)) (j 1)) := by
  refine (staged_out (F := Ideal) c (grid0.coords t) (ms0_0 t) (hs0_0 t) (ms0_1 t) (hs0_1 t) (ms0_2 t) (hs0_2 t) (ms0_3 t) (hs0_3 t) (ms0_4 t) (hs0_4 t)
    (adjBlk m c t) (featBlk m c t) (wBlk m c t) (biasBlk m c t)).trans ?_
  funext j
  obtain ⟨p, q, rfl⟩ : ∃ (p : Fin 400) (q : Fin 128), j = ix2 p q := ⟨j 0, j 1, eq_ix2 j⟩
  exact Cert.SageKernel.payload_at (adjBlk m c t) (featBlk m c t) (selfRows (F := Ideal) (grid0.coords t) (featBlk m c t))
    (weightLeft (F := Ideal) (wBlk m c t)) (weightRight (F := Ideal) (wBlk m c t)) (biasBlk m c t)
    (featArr m c) (adjArr m c) (wArr m c) (biasArr m c) (rowOf t)
    (adjBlk_at m c t) (featBlk_at m c t) (selfRows_at m c t) (weightLeft_at m c t) (weightRight_at m c t)
    (fun q => (biasBlk_at m c t q).trans (biasRow_at m c q)) p q

/-- What step t writes back is its 400 rows of the layer's value. -/
theorem flushed_eq (c : Dev nD) (t : Fin cfg0.N) :
    (dats m 0 c).flushed 4 t = ((cfg0.win 4).blk t).view.read (Elt Ideal) (result m c) := by
  rw [Value.flushed4_A]
  refine (congrArg ((cfg0.win 4).cut (grid0.coords t)) (step_out m c t)).trans ?_
  obtain ⟨-, -, -, -, -, -, -, -, e0, e1, -⟩ := idx_facts t
  funext j
  show result m c (ix2 (rowOf t (j 0)) (j 1)) = result m c (((cfg0.win 4).blk t).view.emb j)
  refine congrArg (result m c) (funext fun a => Fin.ext ?_)
  match a with
  | ⟨0, _⟩ => show 400 * t.val + (j 0).val = win0_4.index t (0 : Fin 2) * 400 + 1 * (j 0).val; omega
  | ⟨1, _⟩ => show (j 1).val = win0_4.index t (1 : Fin 2) * 128 + 1 * (j 1).val; omega

/-- An entry of the result lies in step t's block iff its row is one of the step's 400 rows. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Every entry of the result is in the block of the step that holds its row. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  let t : Fin cfg0.N := ⟨(i 0).val / 400, by rw [show cfg0.N = 25 from N_0]; omega⟩
  obtain ⟨-, -, -, -, -, -, -, -, e0, e1, -⟩ := idx_facts t
  have ht : t.val = (i 0).val / 400 := rfl
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- After the run the result array is the layer's value on the arrays as the call finds them. -/
theorem final (c : Dev nD) : (dats m 0 c).arrAt 4 cfg0.N = result m c :=
  (dats m 0 c).arrAt_eq_of_cover 4 (result m c) (fun t _ => flushed_eq m c t) cover

/-- The arrays the call finds are the arguments. -/
theorem result_args (c : Dev nD) :
    result m c = out (m ((c : Thread nD τ).loc main_arg0)) (m ((c : Thread nD τ).loc main_arg1))
      (m ((c : Thread nD τ).loc main_arg2)) (m ((c : Thread nD τ).loc main_arg3)) := by
  show out (V m c main_arg0) (V m c main_arg1) (V m c main_arg2) (V m c main_arg3) = _
  rw [V_main_arg0, V_main_arg1, V_main_arg2, V_main_arg3]

/-- The run: the result array ends at the layer's value of the arguments, the arguments unchanged. -/
theorem run : θ_run defs (onTc (τ := τ) (main (F := Ideal))) ⟨m, fun _ => 0, ρ⟩ fun r => ∀ c : Dev nD,
      r.2.mem ((c : Thread nD τ).loc main_v1) = out (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans (result_args m c), (h c).2⟩)
    (Value.run_blocks m ρ)

end Cert.KernelIdeal.SageBlocks

end
-- ==== Proof.RefValue.lean ====
/-
  The reference computes the layer's value.

  The reference joins each node's features and its aggregate into one row of length 256 and multiplies by the transposed
  weight: entry (r, q) of that product is Σ_{k<256} row(r, k) · W(q, k). Columns below 128 of the joined row are the
  node's own features, columns from 128 on are the aggregate (A · F)(r, k − 128), so the sum splits at column 128 into
  the two halves of the layer's linear map. Adding the bias, dividing by the row's length kept above the floor: the
  reference's result is the specification's, entry by entry. The sum of a row's squares starts from the zero word, which
  adds nothing.
-/
import proofs.«174508_g49082886258797_cont_8to1_c_363_13_alg».proof.Proof.Gen.ReferenceIdeal.Read
import proofs.«174508_g49082886258797_cont_8to1_c_363_13_alg».proof.Proof.Spec

noncomputable section

open scoped BigOperators

namespace Cert.SageRef

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.SageSpec

variable (x0 : (⟨S10000x128, .f32⟩ : BufTy).Contents (Elt Ideal)) (x1 : (⟨S10000x10000, .f32⟩ : BufTy).Contents (Elt Ideal))
  (x2 : (⟨S128x256, .f32⟩ : BufTy).Contents (Elt Ideal)) (x3 : (⟨S128, .f32⟩ : BufTy).Contents (Elt Ideal))

/-- The reference's first product is the aggregate: (A · F)(r, k) = Σ_l A(r, l) · F(l, k). -/
theorem aggregate_at (r : Fin 10000) (k : Fin 128) : val_main_v0 (F := Ideal) x0 x1 (ix2 r k) = agg x0 x1 r k := by
  rw [val_main_v0_apply]
  unfold agg
  refine Finset.sum_congr rfl fun l _ => ?_
  have e1 : lidx_main_v0 (ix2 r k) l = ix2 r l := funext fun a => Fin.ext (by match a with | ⟨0, _⟩ => rfl | ⟨1, _⟩ => rfl)
  have e2 : ridx_main_v0 (ix2 r k) l = ix2 l k := funext fun a => Fin.ext (by match a with | ⟨0, _⟩ => rfl | ⟨1, _⟩ => rfl)
  rw [e1, e2]

/-- A column below 128 of the joined row is the node's own feature. -/
theorem joined_lo (r : Fin 10000) (q k : Fin 128) :
    val_main_v1 (F := Ideal) x0 x1 (lidx_main_v3 (ix2 r q) (lo k)) = x0 (ix2 r k) := by
  unfold val_main_v1
  exact concatenate_pair_apply_left (1 : Fin S10000x256.rank) x0 _ concatenates_S10000x128_S10000x128_S10000x256_d1 _ rfl (ix2 r k)
    (fun b => match b with | ⟨0, _⟩ => rfl | ⟨1, _⟩ => rfl)

/-- Column 128 + k of the joined row is the aggregate's column k. -/
theorem joined_hi (r : Fin 10000) (q k : Fin 128) :
    val_main_v1 (F := Ideal) x0 x1 (lidx_main_v3 (ix2 r q) (hi k)) = val_main_v0 (F := Ideal) x0 x1 (ix2 r k) := by
  unfold val_main_v1
  exact concatenate_pair_apply_right (1 : Fin S10000x256.rank) x0 _ concatenates_S10000x128_S10000x128_S10000x256_d1 _ rfl rfl (ix2 r k)
    (fun b hb => match b, hb with | ⟨0, _⟩, _ => rfl | ⟨1, _⟩, hb => absurd rfl hb)
    (by show k.val + 128 = 128 + k.val; omega)

/-- The transposed weight at (k, q) is the weight at (q, k). -/
theorem weightT_at (r : Fin 10000) (q : Fin 128) (kk : Fin 256) :
    val_main_v2 (F := Ideal) x2 (ridx_main_v3 (ix2 r q) kk) = x2 (ix2 q kk) := by
  rw [val_main_v2_apply]
  exact congrArg x2 (funext fun a => Fin.ext (by match a with | ⟨0, _⟩ => rfl | ⟨1, _⟩ => rfl))

/-- The reference's linear layer at (r, q): the contraction over 256 columns split at column 128, plus the bias. -/
theorem linear_at (r : Fin 10000) (q : Fin 128) : val_main_v6 (F := Ideal) x0 x1 x2 x3 (ix2 r q) = lin x0 x1 x2 x3 r q := by
  rw [val_main_v6_apply, val_main_v3_apply, val_main_v5_apply, val_main_v4_apply, sum_256_split]
  simp only [joined_lo, joined_hi, weightT_at, aggregate_at, Ideal.addf_def]
  unfold lin
  congr 1
  exact congrArg x3 (funext fun a => Fin.ext (by match a with | ⟨0, _⟩ => rfl))

/-- The reference's result is the layer's value. -/
theorem result_eq : val_main_v14 (F := Ideal) x0 x1 x2 x3 = out x0 x1 x2 x3 := by
  funext i
  obtain ⟨r, q, rfl⟩ : ∃ (r : Fin 10000) (q : Fin 128), i = ix2 r q := ⟨i 0, i 1, eq_ix2 i⟩
  rw [out_ix2, val_main_v14_apply, val_main_v13_apply, val_main_v12_apply, val_main_v10_apply, val_main_v9_apply,
    val_main_v8_apply, val_main_v11_apply, val_main_cst_0_apply, val_main_cst_apply, linear_at]
  have e : ∀ k : Fin 128, idx_main_v8 (idx_main_v9 (idx_main_v13 (ix2 r q))) k = ix2 r k := fun k =>
    funext fun a => Fin.ext (by match a with | ⟨0, _⟩ => rfl | ⟨1, _⟩ => rfl)
  simp only [val_main_v7_apply, e, linear_at, Ideal.hostDivf_def, Ideal.maximumf_def, Ideal.hostUnary_sqrt_def,
    Ideal.mulf_def, Ideal.ofBits_def, Ideal.ofBits_zero_f32, zero_add, len, eps]

end Cert.SageRef

end
-- ==== Proof.lean ====
/-
  A GraphSAGE layer as one fused kernel against its plain reference: both compute, for node features F [10000, 128],
  a dense adjacency A [10000, 10000], a weight W [128, 256] and a bias b [128],

      lin(r, q) = Σ_{k<128} F(r, k) · W(q, k) + Σ_{k<128} (A·F)(r, k) · W(q, 128 + k) + b(q),
      out(r, q) = lin(r, q) / max(√(Σ_q' lin(r, q')²), ε),        ε the binary32 word of 1e-12,

  on the extended reals. The reference joins [F, A·F] into rows of length 256 and contracts them with the transposed
  weight in one product; the kernel walks the rows 400 at a time and contracts the two halves separately. The two differ
  only in where the sum over 256 columns is cut, and a sum of extended reals may be cut anywhere (addition is a
  commutative monoid there), so the finiteness of the inputs is never used. The floor ε is the same word on both sides,
  the square root and the quotient the same functions.

  The kernel changes nothing when read at the ideal values (no rewrite was applied), so the kernel and its idealisation
  are one text. Each program leaves its arguments as they were.
-/
import proofs.«174508_g49082886258797_cont_8to1_c_363_13_alg».proof.Defs
import proofs.«174508_g49082886258797_cont_8to1_c_363_13_alg».proof.Proof.Gen.Kernel
import proofs.«174508_g49082886258797_cont_8to1_c_363_13_alg».proof.Proof.Gen.Kernel.Skeleton
import proofs.«174508_g49082886258797_cont_8to1_c_363_13_alg».proof.Proof.Gen.Kernel.Launch
import proofs.«174508_g49082886258797_cont_8to1_c_363_13_alg».proof.Proof.Gen.Kernel.Points
import proofs.«174508_g49082886258797_cont_8to1_c_363_13_alg».proof.Proof.Gen.Kernel.Frame
import proofs.«174508_g49082886258797_cont_8to1_c_363_13_alg».proof.Proof.Gen.KernelIdeal
import proofs.«174508_g49082886258797_cont_8to1_c_363_13_alg».proof.Proof.Gen.KernelIdeal.Skeleton
import proofs.«174508_g49082886258797_cont_8to1_c_363_13_alg».proof.Proof.Gen.KernelIdeal.Launch
import proofs.«174508_g49082886258797_cont_8to1_c_363_13_alg».proof.Proof.Gen.KernelIdeal.Points
import proofs.«174508_g49082886258797_cont_8to1_c_363_13_alg».proof.Proof.Gen.KernelIdeal.Frame
import proofs.«174508_g49082886258797_cont_8to1_c_363_13_alg».proof.Proof.Gen.ReferenceIdeal
import proofs.«174508_g49082886258797_cont_8to1_c_363_13_alg».proof.Proof.Gen.Pre_finite_inputs
import proofs.«174508_g49082886258797_cont_8to1_c_363_13_alg».proof.Proof.Gen.KernelIdeal.Value
import proofs.«174508_g49082886258797_cont_8to1_c_363_13_alg».proof.Proof.Gen.ReferenceIdeal.Run
import proofs.«174508_g49082886258797_cont_8to1_c_363_13_alg».proof.Proof.Gen.ReferenceIdeal.Read
import proofs.«174508_g49082886258797_cont_8to1_c_363_13_alg».proof.Proof.KernelBlocks
import proofs.«174508_g49082886258797_cont_8to1_c_363_13_alg».proof.Proof.RefValue
import Idealize.ShloMosaic.Adequacy
import Idealize.ShloMosaic.Init

noncomputable section

namespace Cert.Proof

open Idealize.ShloMosaic Idealize.SL.Sem

/-- The kernel, word by word: it runs and leaves its arguments as they were. -/
theorem frame_kernel : Cert.frame_Kernel := fun m ρ _ => Cert.Kernel.Gen.frame m ρ

/-- The kernel at the ideal values: the same. -/
theorem frame_kernelIdeal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the layer's value of those
    arguments: the kernel's by its grid steps' row blocks tiling the rows, the reference's by cutting its contraction
    over 256 columns at column 128. -/
theorem algebraic : Cert.algebraic_KernelIdeal_ReferenceIdeal := by
  intro m ρ m' ρ' _ hagree
  refine ⟨_, Cert.KernelIdeal.SageBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.SageRef.result_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
